-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x64 .f32) (main_arg9 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x128 .f32) (main_arg6 : FVec F S64 .f32) (main_arg7 : FVec F S64x128 .f32) (main_arg8 : FVec F S2x64 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) (main_arg8 : FVec F S2x64 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x64 : Shape := ⟨2, ![128, 64]⟩
abbrev S64x2 : Shape := ⟨2, ![64, 2]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩
abbrev S5000x64 : Shape := ⟨2, ![5000, 64]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S2x64, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S128x64, .f32⟩
  | .hbm, ⟨62, _⟩ => ⟨S128x64, .f32⟩
  | .hbm, ⟨63, _⟩ => ⟨S64x2, .f32⟩
  | .hbm, ⟨64, _⟩ => ⟨S1x64, .f32⟩
  | .hbm, ⟨65, _⟩ => ⟨S1x2, .f32⟩
  | .hbm, ⟨66, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S64x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  transposes_S2x64_S64x2_1_0 : S2x64.Transposes [1, 0] S64x2
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S2x64, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S128x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x2, .f32⟩
  | .hbm, ⟨87, _⟩ => ⟨S100000x2, .f32⟩
  | .hbm, ⟨88, _⟩ => ⟨S1x2, .f32⟩
  | .hbm, ⟨89, _⟩ => ⟨S100000x2, .f32⟩
  | .hbm, ⟨90, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Chain.lean ====
import proofs.«119120_j56435870269829_1_alg».proof.Proof.Gen.KernelIdeal
import proofs.«119120_j56435870269829_1_alg».proof.Proof.Gen.ReferenceIdeal
import Idealize.ShloMosaic.PureOps.Ideal

/-!
The graph aggregation both programs run on the host, named once per program: from the edge list `ei` (row 0 the source
node of each edge, row 1 its destination) the index columns, the clamped in-degree and the neighbourhood sum of a node
array `A`. The two programs apply the same operations; they part only in the last step, the mean: one multiplies the
sum by the reciprocal of the degree, the other divides the sum by the degree.
-/

noncomputable section

namespace Cert.Sage

open Idealize.ShloMosaic Idealize.ShloMosaic.TcCoe

namespace K

open Cert.KernelIdeal Cert.KernelIdeal.Gen

variable (ei : IVec S2x1600000 32)

/-- The edges' source node numbers: row 0 of the edge list. -/
def src : IVec S1600000 32 :=
  shapeCast _ (extractStridedSlice S1x1600000 ![0, 0] ei slices_S2x1600000_S1x1600000_0_0) shapeCasts_S1x1600000_S1600000

/-- The edges' destination node numbers: row 1 of the edge list. -/
def dst : IVec S1600000 32 :=
  shapeCast _ (extractStridedSlice S1x1600000 ![1, 0] ei slices_S2x1600000_S1x1600000_1_0) shapeCasts_S1x1600000_S1600000

/-- The gather's index column: a negative source number counts from the end. -/
def srcCol : IVec S1600000x1 32 :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32))) (src ei))

/-- The scatters' index column. -/
def dstCol : IVec S1600000x1 32 :=
  broadcastInDim S1600000x1 ![0] bcast_S1600000_S1600000x1_0 (dst ei)

/-- A node's in-degree, but at least one: the count of edges that end at it, by a scatter-add of ones, then `max · 1`. -/
def deg : FVec Ideal S100000 .f32 :=
  maximumf
    (Host.scatterAdd scatter_S100000_S1600000x1_S1600000_n_0_0_1
      (broadcastInDim S100000 ![] bcast_S_S100000 (constant (F := Ideal) S_ .f32 0x00000000#32)) (dstCol ei)
      (broadcastInDim S1600000 ![] bcast_S_S1600000 (constant (F := Ideal) S_ .f32 0x3F800000#32)))
    (broadcastInDim S100000 ![] bcast_S_S100000 (constant (F := Ideal) S_ .f32 0x3F800000#32))

/-- The sum over a node's incoming edges of the source nodes' rows of `A`. -/
def agg (A : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol ei)
    (Host.gather gather_S100000x128_S1600000x1_S1600000x128_1_0_n_n_0_1_1128 A (srcCol ei))

/-- The neighbourhood mean as this program spells it: the sum TIMES the reciprocal of the degree. -/
def mean (A : FVec Ideal S100000x128 .f32) : FVec Ideal S100000x128 .f32 :=
  mulf (agg ei A)
    (broadcastInDim S100000x128 ![0, 1] bcast_S100000x1_S100000x128_0_1
      (broadcastInDim S100000x1 ![0] bcast_S100000_S100000x1_0
        (Host.divf (broadcastInDim S100000 ![] bcast_S_S100000 (constant (F := Ideal) S_ .f32 0x3F800000#32)) (deg ei))))

end K

namespace R

open Cert.ReferenceIdeal Cert.ReferenceIdeal.Gen

variable (ei : IVec S2x1600000 32)

/-- The edges' source node numbers: row 0 of the edge list. -/
def src : IVec S1600000 32 :=
  shapeCast _ (extractStridedSlice S1x1600000 ![0, 0] ei slices_S2x1600000_S1x1600000_0_0) shapeCasts_S1x1600000_S1600000

/-- The edges' destination node numbers: row 1 of the edge list. -/
def dst : IVec S1600000 32 :=
  shapeCast _ (extractStridedSlice S1x1600000 ![1, 0] ei slices_S2x1600000_S1x1600000_1_0) shapeCasts_S1x1600000_S1600000

/-- The gather's index column: a negative source number counts from the end. -/
def srcCol : IVec S1600000x1 32 :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32))) (src ei))

/-- The scatters' index column. -/
def dstCol : IVec S1600000x1 32 :=
  broadcastInDim S1600000x1 ![0] bcast_S1600000_S1600000x1_0 (dst ei)

/-- A node's in-degree, but at least one: the count of edges that end at it, by a scatter-add of ones, then `max · 1`. -/
def deg : FVec Ideal S100000 .f32 :=
  maximumf
    (Host.scatterAdd scatter_S100000_S1600000x1_S1600000_n_0_0_1
      (broadcastInDim S100000 ![] bcast_S_S100000 (constant (F := Ideal) S_ .f32 0x00000000#32)) (dstCol ei)
      (broadcastInDim S1600000 ![] bcast_S_S1600000 (constant (F := Ideal) S_ .f32 0x3F800000#32)))
    (broadcastInDim S100000 ![] bcast_S_S100000 (constant (F := Ideal) S_ .f32 0x3F800000#32))

/-- The sum over a node's incoming edges of the source nodes' rows of `A`. -/
def agg (A : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol ei)
    (Host.gather gather_S100000x128_S1600000x1_S1600000x128_1_0_n_n_0_1_1128 A (srcCol ei))

/-- The neighbourhood mean as this program spells it: the sum DIVIDED by the degree. -/
def mean (A : FVec Ideal S100000x128 .f32) : FVec Ideal S100000x128 .f32 :=
  Host.divf (agg ei A)
    (broadcastInDim S100000x128 ![0, 1] bcast_S100000x1_S100000x128_0_1
      (broadcastInDim S100000x1 ![0] bcast_S100000_S100000x1_0 (deg ei)))

end R

end Cert.Sage

end
-- ==== Proof.KHost.lean ====
import proofs.«119120_j56435870269829_1_alg».proof.Proof.Gen.KernelIdeal.Frame
import proofs.«119120_j56435870269829_1_alg».proof.Proof.Chain
import Idealize.ShloMosaic.Lib.StableHlo.Run

/-!
What the two dense kernels find in their operand arrays.

Between the launch and the first kernel the program runs the graph aggregation of the node features on the host and
lays the first layer's weights out (two transposes, the bias as a one-row matrix); between the two kernels it runs the
same aggregation on the first kernel's output and lays the second layer's and the head's weights out. Read through
those host operations, each operand array of a kernel is a named function of the launch arrays (and, for the second
kernel, of the first kernel's output array).
-/

set_option maxRecDepth 16384

noncomputable section

namespace Cert.KernelIdeal.HostV

open Cert.KernelIdeal Cert.KernelIdeal.Gen Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first kernel's entry -/

theorem V1_arg0 (c : Dev nD) : V1 m ρ c main_arg0 = m ((c : Thread nD τ).loc main_arg0) := by
  show StableHlo.after hostOps0 (W0 m ρ c) (Proc.devRef .tc main_arg0) = _
  after_results_simp <;> rfl

/-- The edge list's two rows and the reciprocal degree column, which the second stretch of host operations reads
    again, and the first layer's mean. -/
theorem V1_v1 (c : Dev nD) : V1 m ρ c main_v1 = K.src (m ((c : Thread nD τ).loc main_arg1)) := by
  show StableHlo.after hostOps0 (W0 m ρ c) (Proc.devRef .tc main_v1) = _
  after_results_simp
  unfold K.src
  rfl

theorem V1_v3 (c : Dev nD) : V1 m ρ c main_v3 = K.dst (m ((c : Thread nD τ).loc main_arg1)) := by
  show StableHlo.after hostOps0 (W0 m ρ c) (Proc.devRef .tc main_v3) = _
  after_results_simp
  unfold K.dst
  rfl

theorem V1_v12 (c : Dev nD) : V1 m ρ c main_v12
    = broadcastInDim S100000x1 ![0] bcast_S100000_S100000x1_0
        (Host.divf (broadcastInDim S100000 ![] bcast_S_S100000 (constant (F := Ideal) S_ .f32 0x3F800000#32))
          (K.deg (m ((c : Thread nD τ).loc main_arg1)))) := by
  show StableHlo.after hostOps0 (W0 m ρ c) (Proc.devRef .tc main_v12) = _
  after_results_simp
  unfold K.deg K.dstCol K.dst
  rfl

theorem V1_v24 (c : Dev nD) : V1 m ρ c main_v24
    = K.mean (m ((c : Thread nD τ).loc main_arg1)) (m ((c : Thread nD τ).loc main_arg0)) := by
  show StableHlo.after hostOps0 (W0 m ρ c) (Proc.devRef .tc main_v24) = _
  after_results_simp
  unfold K.mean K.agg K.deg K.srcCol K.dstCol K.src K.dst
  rfl

theorem V1_v25 (c : Dev nD) : V1 m ρ c main_v25
    = transpose S128x128 [1, 0] (m ((c : Thread nD τ).loc main_arg2)) transposes_S128x128_S128x128_1_0 := by
  show StableHlo.after hostOps0 (W0 m ρ c) (Proc.devRef .tc main_v25) = _
  after_results_simp <;> rfl

theorem V1_v26 (c : Dev nD) : V1 m ρ c main_v26
    = transpose S128x128 [1, 0] (m ((c : Thread nD τ).loc main_arg4)) transposes_S128x128_S128x128_1_0 := by
  show StableHlo.after hostOps0 (W0 m ρ c) (Proc.devRef .tc main_v26) = _
  after_results_simp <;> rfl

theorem V1_v27 (c : Dev nD) : V1 m ρ c main_v27
    = shapeCast S1x128 (m ((c : Thread nD τ).loc main_arg3)) shapeCasts_S128_S1x128 := by
  show StableHlo.after hostOps0 (W0 m ρ c) (Proc.devRef .tc main_v27) = _
  after_results_simp <;> rfl

/-! ## At the first kernel's exit: its output array holds what the pipeline left, every other buffer what it held -/

theorem W2_v28 (c : Dev nD) : W2 m ρ c (Proc.devRef .tc main_v28) = (dat0 (V1 m ρ) c).arrAt 5 cfg0.N :=
  W2_arr m ρ c 5

theorem W2_v1 (c : Dev nD) : W2 m ρ c (Proc.devRef .tc main_v1) = K.src (m ((c : Thread nD τ).loc main_arg1)) :=
  (W2_of_ne m ρ c main_v1 (by decide)).trans (V1_v1 m ρ c)

theorem W2_v3 (c : Dev nD) : W2 m ρ c (Proc.devRef .tc main_v3) = K.dst (m ((c : Thread nD τ).loc main_arg1)) :=
  (W2_of_ne m ρ c main_v3 (by decide)).trans (V1_v3 m ρ c)

theorem W2_v12 (c : Dev nD) : W2 m ρ c (Proc.devRef .tc main_v12)
    = broadcastInDim S100000x1 ![0] bcast_S100000_S100000x1_0
        (Host.divf (broadcastInDim S100000 ![] bcast_S_S100000 (constant (F := Ideal) S_ .f32 0x3F800000#32))
          (K.deg (m ((c : Thread nD τ).loc main_arg1)))) :=
  (W2_of_ne m ρ c main_v12 (by decide)).trans (V1_v12 m ρ c)

/-- A launch array is still what it was: no host operation and no kernel writes one. -/
theorem W2_arg (c : Dev nD) (b : Ref sig .tc) (hb : ∀ w, Pipeline.arrRef spec0 w ≠ b)
    (h1 : V1 m ρ c b = m ((c : Thread nD τ).loc b)) : W2 m ρ c (Proc.devRef .tc b) = m ((c : Thread nD τ).loc b) :=
  (W2_of_ne m ρ c b hb).trans h1

/-! ## At the second kernel's entry -/

theorem V3_v28 (c : Dev nD) : V3 m ρ c main_v28 = (dat0 (V1 m ρ) c).arrAt 5 cfg0.N := by
  show StableHlo.after hostOps1 (W2 m ρ c) (Proc.devRef .tc main_v28) = _
  after_results_simp
  exact W2_v28 m ρ c

theorem V3_v40 (c : Dev nD) : V3 m ρ c main_v40
    = K.mean (m ((c : Thread nD τ).loc main_arg1)) ((dat0 (V1 m ρ) c).arrAt 5 cfg0.N) := by
  show StableHlo.after hostOps1 (W2 m ρ c) (Proc.devRef .tc main_v40) = _
  after_results_simp
  rw [W2_v28 m ρ c, W2_v1 m ρ c, W2_v3 m ρ c, W2_v12 m ρ c]
  unfold K.mean K.agg K.srcCol K.dstCol
  rfl

theorem V3_v41 (c : Dev nD) : V3 m ρ c main_v41
    = transpose S128x64 [1, 0] (m ((c : Thread nD τ).loc main_arg5)) transposes_S64x128_S128x64_1_0 := by
  show StableHlo.after hostOps1 (W2 m ρ c) (Proc.devRef .tc main_v41) = _
  after_results_simp
  rw [W2_arg m ρ c main_arg5 (by decide) (by
    show StableHlo.after hostOps0 (W0 m ρ c) (Proc.devRef .tc main_arg5) = _
    after_results_simp <;> rfl)]

theorem V3_v42 (c : Dev nD) : V3 m ρ c main_v42
    = transpose S128x64 [1, 0] (m ((c : Thread nD τ).loc main_arg7)) transposes_S64x128_S128x64_1_0 := by
  show StableHlo.after hostOps1 (W2 m ρ c) (Proc.devRef .tc main_v42) = _
  after_results_simp
  rw [W2_arg m ρ c main_arg7 (by decide) (by
    show StableHlo.after hostOps0 (W0 m ρ c) (Proc.devRef .tc main_arg7) = _
    after_results_simp <;> rfl)]

theorem V3_v43 (c : Dev nD) : V3 m ρ c main_v43
    = transpose S64x2 [1, 0] (m ((c : Thread nD τ).loc main_arg8)) transposes_S2x64_S64x2_1_0 := by
  show StableHlo.after hostOps1 (W2 m ρ c) (Proc.devRef .tc main_v43) = _
  after_results_simp
  rw [W2_arg m ρ c main_arg8 (by decide) (by
    show StableHlo.after hostOps0 (W0 m ρ c) (Proc.devRef .tc main_arg8) = _
    after_results_simp <;> rfl)]

theorem V3_v44 (c : Dev nD) : V3 m ρ c main_v44
    = shapeCast S1x64 (m ((c : Thread nD τ).loc main_arg6)) shapeCasts_S64_S1x64 := by
  show StableHlo.after hostOps1 (W2 m ρ c) (Proc.devRef .tc main_v44) = _
  after_results_simp
  rw [W2_arg m ρ c main_arg6 (by decide) (by
    show StableHlo.after hostOps0 (W0 m ρ c) (Proc.devRef .tc main_arg6) = _
    after_results_simp <;> rfl)]
  rfl

theorem V3_v45 (c : Dev nD) : V3 m ρ c main_v45
    = shapeCast S1x2 (m ((c : Thread nD τ).loc main_arg9)) shapeCasts_S2_S1x2 := by
  show StableHlo.after hostOps1 (W2 m ρ c) (Proc.devRef .tc main_v45) = _
  after_results_simp
  rw [W2_arg m ρ c main_arg9 (by decide) (by
    show StableHlo.after hostOps0 (W0 m ρ c) (Proc.devRef .tc main_arg9) = _
    after_results_simp <;> rfl)]
  rfl

end Cert.KernelIdeal.HostV

end
-- ==== Proof.Layers.lean ====
import Idealize.ShloMosaic.PureOps.Ideal
import Idealize.ShloMosaic.PureOps.Ideal.Laws
import Idealize.ShloMosaic.Lib.ValueIdx

/-!
The dense part of a mean-aggregation graph layer, and the linear head, as functions of whole arrays over the
extended reals, index by index.

A layer takes the node features `X`, the neighbourhood means `M` (both `n` rows of `d` features), two weight
matrices and a bias, and gives row `r`, feature `j`:
`max ((∑ₖ M r k · Wl j k + b j) + ∑ₖ X r k · Wr j k) 0`.
Two spellings of the same function are stated: over the weights as given (`e × d`, the bias a vector), and over the
weights already transposed (`d × e`, the bias a one-row matrix); `dense_eq` joins them. Every row of the result depends
on the same row of `X` and `M` only (`denseT_rows`, `headT_rows`), which is what lets a row block be computed from the
row blocks of its inputs.
-/

noncomputable section

open scoped BigOperators

namespace Cert.Sage

open Idealize.ShloMosaic Idealize.ShloMosaic.ValueIdx

/-- An `a × b` array of extended reals. -/
abbrev Arr (a b : Nat) := (⟨2, ![a, b]⟩ : Shape).Idx → EReal
/-- A vector of `a` extended reals. -/
abbrev Vct (a : Nat) := (⟨1, ![a]⟩ : Shape).Idx → EReal

/-- The layer over transposed weights `d × e` and a one-row bias. -/
def denseT {n d e : Nat} (X M : Arr n d) (Wl Wr : Arr d e) (b : Arr 1 e) : Arr n e := fun i =>
  max ((∑ k : Fin d, M (ix2 (i 0) k) * Wl (ix2 k (i 1)) + b (ix2 (0 : Fin 1) (i 1)))
    + ∑ k : Fin d, X (ix2 (i 0) k) * Wr (ix2 k (i 1))) 0

/-- The linear head over a transposed weight `e × o` and a one-row bias. -/
def headT {n e o : Nat} (H : Arr n e) (W : Arr e o) (b : Arr 1 o) : Arr n o := fun i =>
  ∑ q : Fin e, H (ix2 (i 0) q) * W (ix2 q (i 1)) + b (ix2 (0 : Fin 1) (i 1))

/-- The layer over the weights as given, `e × d`, and a bias vector. -/
def dense {n d e : Nat} (X M : Arr n d) (Wl Wr : Arr e d) (b : Vct e) : Arr n e := fun i =>
  max ((∑ k : Fin d, M (ix2 (i 0) k) * Wl (ix2 (i 1) k) + b (ix1 (i 1)))
    + ∑ k : Fin d, X (ix2 (i 0) k) * Wr (ix2 (i 1) k)) 0

/-- The linear head over the weight as given, `o × e`, and a bias vector. -/
def head {n e o : Nat} (H : Arr n e) (W : Arr o e) (b : Vct o) : Arr n o := fun i =>
  ∑ q : Fin e, H (ix2 (i 0) q) * W (ix2 (i 1) q) + b (ix1 (i 1))

theorem denseT_apply {n d e : Nat} (X M : Arr n d) (Wl Wr : Arr d e) (b : Arr 1 e) (p : Fin n) (q : Fin e) :
    denseT X M Wl Wr b (ix2 p q)
      = max ((∑ k : Fin d, M (ix2 p k) * Wl (ix2 k q) + b (ix2 (0 : Fin 1) q)) + ∑ k : Fin d, X (ix2 p k) * Wr (ix2 k q)) 0 := rfl

theorem headT_apply {n e o : Nat} (H : Arr n e) (W : Arr e o) (b : Arr 1 o) (p : Fin n) (q : Fin o) :
    headT H W b (ix2 p q) = ∑ k : Fin e, H (ix2 p k) * W (ix2 k q) + b (ix2 (0 : Fin 1) q) := rfl

theorem dense_apply {n d e : Nat} (X M : Arr n d) (Wl Wr : Arr e d) (b : Vct e) (p : Fin n) (q : Fin e) :
    dense X M Wl Wr b (ix2 p q)
      = max ((∑ k : Fin d, M (ix2 p k) * Wl (ix2 q k) + b (ix1 q)) + ∑ k : Fin d, X (ix2 p k) * Wr (ix2 q k)) 0 := rfl

theorem head_apply {n e o : Nat} (H : Arr n e) (W : Arr o e) (b : Vct o) (p : Fin n) (q : Fin o) :
    head H W b (ix2 p q) = ∑ k : Fin e, H (ix2 p k) * W (ix2 q k) + b (ix1 q) := rfl

/-- The transposed spelling at weights that ARE the transposes is the plain one. -/
theorem dense_eq {n d e : Nat} (X M : Arr n d) (Wl Wr : Arr e d) (b : Vct e) (WlT WrT : Arr d e) (bT : Arr 1 e)
    (hl : ∀ (k : Fin d) (j : Fin e), WlT (ix2 k j) = Wl (ix2 j k))
    (hr : ∀ (k : Fin d) (j : Fin e), WrT (ix2 k j) = Wr (ix2 j k))
    (hb : ∀ j : Fin e, bT (ix2 (0 : Fin 1) j) = b (ix1 j)) :
    denseT X M WlT WrT bT = dense X M Wl Wr b := by
  funext i
  obtain ⟨p, q, rfl⟩ : ∃ (p : Fin n) (q : Fin e), i = ix2 p q := ⟨i 0, i 1, eq_ix2 i⟩
  rw [denseT_apply, dense_apply]
  simp only [hl, hr, hb]

theorem head_eq {n e o : Nat} (H : Arr n e) (W : Arr o e) (b : Vct o) (WT : Arr e o) (bT : Arr 1 o)
    (hw : ∀ (q : Fin e) (j : Fin o), WT (ix2 q j) = W (ix2 j q))
    (hb : ∀ j : Fin o, bT (ix2 (0 : Fin 1) j) = b (ix1 j)) :
    headT H WT bT = head H W b := by
  funext i
  obtain ⟨p, q, rfl⟩ : ∃ (p : Fin n) (q : Fin o), i = ix2 p q := ⟨i 0, i 1, eq_ix2 i⟩
  rw [headT_apply, head_apply]
  simp only [hw, hb]

/-- Row `r` of the layer reads row `r` of its two row inputs only: if `X'`, `M'` hold at row `r'` what `X`, `M` hold
    at row `r`, the layer of the primed arrays at `(r', j)` is the layer of the others at `(r, j)`. -/
theorem denseT_rows {n n' d e : Nat} (X M : Arr n d) (X' M' : Arr n' d) (Wl Wr : Arr d e) (b : Arr 1 e)
    (r : Fin n) (r' : Fin n') (j : Fin e)
    (hX : ∀ k : Fin d, X' (ix2 r' k) = X (ix2 r k)) (hM : ∀ k : Fin d, M' (ix2 r' k) = M (ix2 r k)) :
    denseT X' M' Wl Wr b (ix2 r' j) = denseT X M Wl Wr b (ix2 r j) := by
  rw [denseT_apply, denseT_apply]
  simp only [hX, hM]

/-- The same for the head: row `r` of the result reads row `r` of `H` only. -/
theorem headT_rows {n n' e o : Nat} (H : Arr n e) (H' : Arr n' e) (W : Arr e o) (b : Arr 1 o)
    (r : Fin n) (r' : Fin n') (j : Fin o) (hH : ∀ q : Fin e, H' (ix2 r' q) = H (ix2 r q)) :
    headT H' W b (ix2 r' j) = headT H W b (ix2 r j) := by
  rw [headT_apply, headT_apply]
  simp only [hH]

end Cert.Sage

end
-- ==== Proof.Region0.lean ====
import proofs.«119120_j56435870269829_1_alg».proof.Proof.Gen.KernelIdeal.Frame
import proofs.«119120_j56435870269829_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
The first dense kernel's output array as ONE function of the arrays its region finds.

The region walks the 100000 node rows in 20 blocks of 5000; at a block it loads the block's rows of the features and
of the neighbourhood means, the two whole 128 × 128 weight matrices and the one-row bias, and stores
`max ((mean · Wl + b) + x · Wr) 0`. A row of that result reads the same row of the two row inputs only, so block `t`
of the layer of the whole arrays is the layer of the blocks; the blocks tile the rows, so the array ends holding the
layer of the whole arrays.
-/

set_option maxRecDepth 16384

noncomputable section

open scoped BigOperators

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Offsets zero on both axes, as a constant function. -/
theorem zero_offsets : (![0, 0] : Fin 2 → Nat) = fun _ => 0 := funext fun a => by fin_cases a <;> rfl

/-! ## The block product read at an index

The kernel multiplies a 5000 × 128 block by a 128 × 128 matrix, contracting the block's columns with the matrix's
rows. Read at row `p`, column `q`, the left factor is read at `(p, k)` and the right at `(k, q)`, `k` the one
contraction coordinate. -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at `(p, q)`: the sum over `k` of the left factor at `(p, k)` times the
    right factor at `(k, q)`. -/
theorem product_at (x : FVec Ideal S5000x128 .bf16) (y : FVec Ideal S128x128 .bf16) (p : Fin 5000) (q : Fin 128) :
    matmul dot_S5000x128_S128x128_S5000x128_1_0_0_1_n_n none x y (constant (F := Ideal) S5000x128 .f32 0x00000000#32) (ix2 p q)
      = ∑ k : Fin 128, x (ix2 p k) * y (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's arithmetic on its loaded blocks is the layer of those blocks, 5000 rows at a time. -/
theorem payload_eq (x m : Vec Ideal S5000x128 .f32) (wl wr : Vec Ideal S128x128 .f32) (b : Vec Ideal S1x128 .f32) :
    k0_pay1 (F := Ideal) x m wl wr b = denseT (n := 5000) (d := 128) (e := 128) x m wl wr b := by
  funext i
  obtain ⟨p, q, rfl⟩ : ∃ (p : Fin 5000) (q : Fin 128), i = ix2 p q := ⟨i 0, i 1, eq_ix2 i⟩
  rw [denseT_apply]
  unfold k0_pay1
  simp only [shapeCast_self]
  rw [maximumf_apply, addf_apply, addf_apply, product_at, product_at, broadcastTo_1b_ab_apply, broadcast_apply,
    Ideal.ofBits_def, Ideal.ofBits_zero_f32]
  rfl

/-! ## Where each window's block sits

The row windows (features, means, output) take block `t` of 5000 rows at point `t`; the two weight windows and the
bias window take their one block, the whole array, at every point. -/

theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem grid_points : cfg0.N = 20 := by decide

/-- Row `r` of the feature block at point `t` is row `5000 t + r` of the feature array. -/
theorem features_block (c : Dev nD) (t : Fin cfg0.N) (r : Fin 5000) (k : Fin 128) (R : Fin 100000)
    (hR : R.val = 5000 * t.val + r.val) :
    (iblk0 V c 0 t : Arr 5000 128) (ix2 r k) = (V c main_arg0 : Arr 100000 128) (ix2 R k) := by
  show V c main_arg0 (((cfg0.win 0).blk t).view.emb (ix2 r k)) = V c main_arg0 (ix2 R k)
  obtain ⟨e0, e1, -⟩ := index_facts t
  refine congrArg (V c main_arg0) (funext fun a => Fin.ext ?_)
  match a with
  | ⟨0, _⟩ => show win0_0.index t (0 : Fin 2) * 5000 + 1 * r.val = R.val; rw [e0, hR]; omega
  | ⟨1, _⟩ => show win0_0.index t (1 : Fin 2) * 128 + 1 * k.val = k.val; rw [e1]; omega

/-- Row `r` of the means block at point `t` is row `5000 t + r` of the means array. -/
theorem means_block (c : Dev nD) (t : Fin cfg0.N) (r : Fin 5000) (k : Fin 128) (R : Fin 100000)
    (hR : R.val = 5000 * t.val + r.val) :
    (iblk0 V c 1 t : Arr 5000 128) (ix2 r k) = (V c main_v24 : Arr 100000 128) (ix2 R k) := by
  show V c main_v24 (((cfg0.win 1).blk t).view.emb (ix2 r k)) = V c main_v24 (ix2 R k)
  obtain ⟨-, -, e0, e1, -⟩ := index_facts t
  refine congrArg (V c main_v24) (funext fun a => Fin.ext ?_)
  match a with
  | ⟨0, _⟩ => show win0_1.index t (0 : Fin 2) * 5000 + 1 * r.val = R.val; rw [e0, hR]; omega
  | ⟨1, _⟩ => show win0_1.index t (1 : Fin 2) * 128 + 1 * k.val = k.val; rw [e1]; omega

/-- The first weight window's block is the whole first weight matrix, at every point. -/
theorem weights_left_block (c : Dev nD) (t : Fin cfg0.N) :
    (iblk0 V c 2 t : Arr 128 128) = (V c main_v25 : Arr 128 128) := by
  funext y
  obtain ⟨k, q, rfl⟩ : ∃ (k : Fin 128) (q : Fin 128), y = ix2 k q := ⟨y 0, y 1, eq_ix2 y⟩
  show V c main_v25 (((cfg0.win 2).blk t).view.emb (ix2 k q)) = V c main_v25 (ix2 k q)
  obtain ⟨-, -, -, -, e0, e1, -⟩ := index_facts t
  refine congrArg (V c main_v25) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias window's block is the whole one-row bias, at every point. -/
theorem bias_block (c : Dev nD) (t : Fin cfg0.N) :
    (iblk0 V c 3 t : Arr 1 128) = (V c main_v27 : Arr 1 128) := by
  funext y
  obtain ⟨k, q, rfl⟩ : ∃ (k : Fin 1) (q : Fin 128), y = ix2 k q := ⟨y 0, y 1, eq_ix2 y⟩
  show V c main_v27 (((cfg0.win 3).blk t).view.emb (ix2 k q)) = V c main_v27 (ix2 k q)
  obtain ⟨-, -, -, -, -, -, e0, e1, -⟩ := index_facts t
  refine congrArg (V c main_v27) (funext fun a => Fin.ext ?_)
  match a with
  | ⟨0, _⟩ => show win0_3.index t (0 : Fin 2) * 1 + 1 * k.val = k.val; rw [e0]; omega
  | ⟨1, _⟩ => show win0_3.index t (1 : Fin 2) * 128 + 1 * q.val = q.val; rw [e1]; omega

/-- The second weight window's block is the whole second weight matrix, at every point. -/
theorem weights_right_block (c : Dev nD) (t : Fin cfg0.N) :
    (iblk0 V c 4 t : Arr 128 128) = (V c main_v26 : Arr 128 128) := by
  funext y
  obtain ⟨k, q, rfl⟩ : ∃ (k : Fin 128) (q : Fin 128), y = ix2 k q := ⟨y 0, y 1, eq_ix2 y⟩
  show V c main_v26 (((cfg0.win 4).blk t).view.emb (ix2 k q)) = V c main_v26 (ix2 k q)
  obtain ⟨-, -, -, -, -, -, -, -, e0, e1, -⟩ := index_facts t
  refine congrArg (V c main_v26) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-! ## What a point writes back -/

/-- The layer at one row reads that row of its two row inputs, and the whole of the weights and bias: arrays that
    agree with others there give the same value. -/
theorem denseT_congr_row {n n' d e : Nat} (X M : Arr n d) (X' M' : Arr n' d) (Wl Wr Wl' Wr' : Arr d e) (b b' : Arr 1 e)
    (r : Fin n) (r' : Fin n') (j : Fin e)
    (hX : ∀ k : Fin d, X' (ix2 r' k) = X (ix2 r k)) (hM : ∀ k : Fin d, M' (ix2 r' k) = M (ix2 r k))
    (hWl : Wl' = Wl) (hWr : Wr' = Wr) (hb : b' = b) :
    denseT X' M' Wl' Wr' b' (ix2 r' j) = denseT X M Wl Wr b (ix2 r j) := by
  subst hWl hWr hb
  exact denseT_rows X M X' M' Wl' Wr' b' r r' j hX hM

/-- The layer of the whole arrays the region finds. -/
abbrev layer (c : Dev nD) : Arr 100000 128 :=
  denseT (n := 100000) (d := 128) (e := 128) (V c main_arg0) (V c main_v24) (V c main_v25) (V c main_v26) (V c main_v27)

/-- Point `t` writes back block `t` of the layer of the whole arrays. -/
theorem flushed_eq (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [payload_eq]
  funext j
  obtain ⟨r, q, rfl⟩ : ∃ (r : Fin 5000) (q : Fin 128), j = ix2 r q := ⟨j 0, j 1, eq_ix2 j⟩
  have ht : t.val < 20 := lt_of_lt_of_eq t.isLt grid_points
  have hR : 5000 * t.val + r.val < 100000 := by have := r.isLt; omega
  obtain ⟨-, -, -, -, -, -, -, -, -, -, e0, e1⟩ := index_facts t
  have eR : ((cfg0.win 5).blk t).view.emb (ix2 r q) = ix2 (⟨5000 * t.val + r.val, hR⟩ : Fin 100000) q :=
    funext fun a => Fin.ext (by
      match a with
      | ⟨0, _⟩ => show win0_5.index t (0 : Fin 2) * 5000 + 1 * r.val = 5000 * t.val + r.val; rw [e0]; omega
      | ⟨1, _⟩ => show win0_5.index t (1 : Fin 2) * 128 + 1 * q.val = q.val; rw [e1]; omega)
  show denseT (n := 5000) (d := 128) (e := 128) (iblk0 V c 0 t) (iblk0 V c 1 t) (iblk0 V c 2 t) (iblk0 V c 4 t) (iblk0 V c 3 t) (ix2 r q)
    = layer V c (((cfg0.win 5).blk t).view.emb (ix2 r q))
  refine Eq.trans ?_ (congrArg (layer V c) eR).symm
  exact denseT_congr_row _ _ _ _ _ _ _ _ _ _ _ _ _
    (fun k => features_block V c t r k _ rfl) (fun k => means_block V c t r k _ rfl)
    (weights_left_block V c t) (weights_right_block V c t) (bias_block V c t)

/-! ## The blocks tile the rows -/

/-- An index of the output array lies in point `t`'s block exactly when each coordinate lies in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Row `r` of the output lies in the block of point `r / 5000`, and every point writes its block back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [grid_points]; omega⟩, rfl⟩
  refine ⟨t, flush0_5 t, ?_⟩
  rw [mem_blk]
  obtain ⟨-, -, -, -, -, -, -, -, -, -, e0, e1⟩ := index_facts t
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The region's output array after its 20 points: the layer, over transposed weights, of the arrays found at entry. -/
theorem final (c : Dev nD) : (dat0 (F := Ideal) V c).arrAt 5 cfg0.N
    = denseT (n := 100000) (d := 128) (e := 128) (V c main_arg0) (V c main_v24) (V c main_v25) (V c main_v26) (V c main_v27) := by
  exact (dat0 V c).arrAt_eq_of_cover 5 (layer V c) (fun t _ => flushed_eq V c t) cover

end Cert.KernelIdeal.Region0

end
-- ==== Proof.Region1.lean ====
import proofs.«119120_j56435870269829_1_alg».proof.Proof.Gen.KernelIdeal.Frame
import proofs.«119120_j56435870269829_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
The second dense kernel's output array as ONE function of the arrays its region finds.

The region walks the 100000 node rows in 20 blocks of 5000; at a block it computes the second layer
`max ((mean · Wl + b) + h · Wr) 0` (64 features) from the block's rows of the first layer's output and of its
neighbourhood means, then the linear head `· Wfc + bfc` (2 outputs). Both steps are row by row, so block `t` of the
head of the layer of the whole arrays is the head of the layer of the blocks, and the blocks tile the rows.
-/

set_option maxRecDepth 16384

noncomputable section

open scoped BigOperators

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two contractions of the block's arithmetic, at an index -/

theorem lhs_layer_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_layer_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_layer_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_layer_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 5000 × 128 block times a 128 × 64 weight into a zero accumulator, at row `p` and feature `q`, is the sum over the 128 shared features. -/
theorem matmul_layer_apply (x : FVec Ideal S5000x128 .bf16) (y : FVec Ideal S128x64 .bf16) (p : Fin 5000) (q : Fin 64) :
    matmul dot_S5000x128_S128x64_S5000x64_1_0_0_1_n_n none x y (constant (F := Ideal) S5000x64 .f32 0x00000000#32) (ix2 p q)
      = ∑ k : Fin 128, x (ix2 p k) * y (ix2 k q) := by
  refine (Ideal.matmul_constant_zero_apply dot_S5000x128_S128x64_S5000x64_1_0_0_1_n_n none x y (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_layer_0 _ _
    | ⟨1, _⟩ => exact (lhs_layer_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_layer_0 _ _).trans hk
    | ⟨1, _⟩ => exact rhs_layer_1 _ _)
  rw [el, er]

theorem lhs_head_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs_head_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem rhs_head_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem rhs_head_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- A 5000 × 64 block times a 64 × 2 weight into a zero accumulator, at row `p` and output `q`, is the sum over the 64 features. -/
theorem matmul_head_apply (x : FVec Ideal S5000x64 .bf16) (y : FVec Ideal S64x2 .bf16) (p : Fin 5000) (q : Fin 2) :
    matmul dot_S5000x64_S64x2_S5000x2_1_0_0_1_n_n none x y (constant (F := Ideal) S5000x2 .f32 0x00000000#32) (ix2 p q)
      = ∑ k : Fin 64, x (ix2 p k) * y (ix2 k q) := by
  refine (Ideal.matmul_constant_zero_apply dot_S5000x64_S64x2_S5000x2_1_0_0_1_n_n none x y (ix2 p q)).trans ?_
  rw [← Equiv.sum_comp (ValueIdx.contrEquiv1 dot_S5000x64_S64x2_S5000x2_1_0_0_1_n_n 64 rfl rfl).symm]
  refine Finset.sum_congr rfl fun k _ => ?_
  have hk := ValueIdx.contrEquiv1_symm_val dot_S5000x64_S64x2_S5000x2_1_0_0_1_n_n 64 rfl rfl k
  have el : dot_S5000x64_S64x2_S5000x2_1_0_0_1_n_n.lhsIdx (ix2 p q) ((ValueIdx.contrEquiv1 dot_S5000x64_S64x2_S5000x2_1_0_0_1_n_n 64 rfl rfl).symm k) = ix2 p k := funext fun a => Fin.ext (by
    match a with
    | ⟨0, _⟩ => exact lhs_head_0 _ _
    | ⟨1, _⟩ => exact (lhs_head_1 _ _).trans hk)
  have er : dot_S5000x64_S64x2_S5000x2_1_0_0_1_n_n.rhsIdx (ix2 p q) ((ValueIdx.contrEquiv1 dot_S5000x64_S64x2_S5000x2_1_0_0_1_n_n 64 rfl rfl).symm k) = ix2 k q := funext fun a => Fin.ext (by
    match a with
    | ⟨0, _⟩ => exact (rhs_head_0 _ _).trans hk
    | ⟨1, _⟩ => exact rhs_head_1 _ _)
  rw [el, er]

/-! ## The block's arithmetic is the layer then the head of its loaded blocks -/

/-- The one-row bias spread over the 5000 rows of 64 features reads the bias row at every row. -/
theorem bias_layer_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

/-- The same for the head's one-row bias over 2 outputs. -/
theorem bias_head_apply (b : FVec Ideal S1x2 .f32) (p : Fin 5000) (q : Fin 2) :
    broadcastTo S5000x2 b broadcasts_S1x2_S5000x2 (ix2 p q) = b (ix2 (0 : Fin 1) q) :=
  broadcastTo_apply b broadcasts_S1x2_S5000x2 (ix2 p q) (ix2 (0 : Fin 1) q) (fun a => by
    match a with
    | ⟨0, _⟩ => rfl
    | ⟨1, _⟩ => rfl)

/-- What a point stores: the head of the layer of the blocks it loaded (the narrowing to 16 bits before each product
    is the identity over the extended reals). -/
theorem payload_eq (v0 v3 : Vec Ideal S5000x128 .f32) (v6 v9 : Vec Ideal S128x64 .f32) (v14 : Vec Ideal S1x64 .f32)
    (v22 : Vec Ideal S64x2 .f32) (v26 : Vec Ideal S1x2 .f32) :
    k1_pay1 (F := Ideal) v0 v3 v6 v9 v14 v22 v26
      = headT (n := 5000) (e := 64) (o := 2) (denseT (n := 5000) (d := 128) (e := 64) v0 v3 v6 v9 v14) v22 v26 := by
  funext i
  obtain ⟨p, q, rfl⟩ : ∃ (p : Fin 5000) (q : Fin 2), i = ix2 p q := ⟨i 0, i 1, eq_ix2 i⟩
  unfold k1_pay1
  rw [headT_apply]
  simp only [addf_apply, maximumf_apply, truncf_apply, broadcast_apply, shapeCast_self, matmul_head_apply,
    matmul_layer_apply, bias_head_apply, bias_layer_apply, denseT_apply, Ideal.ofBits_def, Ideal.ofBits_zero_f32]

/-! ## From the blocks to the whole array -/

theorem zero_offsets : (![0, 0] : Fin 2 → Nat) = fun _ => 0 := funext fun a => by fin_cases a <;> rfl

/-- The block index maps at each of the 20 points: the two row inputs and the output are at block row `t`,
    column block 0; the weights and the biases are at block (0, 0) always. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of point `t`'s block of the node features is row `5000 t + r` of the array. -/
theorem rows_features (c : Dev nD) (t : Fin cfg1.N) (r : Fin 5000) (R : Fin 100000) (hR : R.val = 5000 * t.val + r.val)
    (k : Fin 128) : iblk1 (F := Ideal) V c 0 t (ix2 r k) = V c main_v28 (ix2 R k) := by
  show V c main_v28 (((cfg1.win 0).blk t).view.emb (ix2 r k)) = V c main_v28 (ix2 R k)
  refine congrArg _ (funext fun a => Fin.ext ?_)
  obtain ⟨e0, e1, -⟩ := block_indices t
  match a with
  | ⟨0, _⟩ => show win1_0.index t (0 : Fin 2) * 5000 + 1 * r.val = R.val; omega
  | ⟨1, _⟩ => show win1_0.index t (1 : Fin 2) * 128 + 1 * k.val = k.val; omega

/-- The same for the neighbourhood means. -/
theorem rows_means (c : Dev nD) (t : Fin cfg1.N) (r : Fin 5000) (R : Fin 100000) (hR : R.val = 5000 * t.val + r.val)
    (k : Fin 128) : iblk1 (F := Ideal) V c 1 t (ix2 r k) = V c main_v40 (ix2 R k) := by
  show V c main_v40 (((cfg1.win 1).blk t).view.emb (ix2 r k)) = V c main_v40 (ix2 R k)
  refine congrArg _ (funext fun a => Fin.ext ?_)
  obtain ⟨-, -, e0, e1, -⟩ := block_indices t
  match a with
  | ⟨0, _⟩ => show win1_1.index t (0 : Fin 2) * 5000 + 1 * r.val = R.val; omega
  | ⟨1, _⟩ => show win1_1.index t (1 : Fin 2) * 128 + 1 * k.val = k.val; omega

/-- A weight's or a bias's block is its whole array, at every point. -/
theorem whole_left_weight (c : Dev nD) (t : Fin cfg1.N) : iblk1 (F := Ideal) V c 2 t = V c main_v41 := by
  funext y
  show V c main_v41 (((cfg1.win 2).blk t).view.emb y) = V c main_v41 y
  refine congrArg _ (funext fun a => Fin.ext ?_)
  obtain ⟨-, -, -, -, e0, e1, -⟩ := block_indices t
  match a with
  | ⟨0, _⟩ => show win1_2.index t (0 : Fin 2) * 128 + 1 * (y 0).val = (y 0).val; omega
  | ⟨1, _⟩ => show win1_2.index t (1 : Fin 2) * 64 + 1 * (y 1).val = (y 1).val; omega
theorem whole_bias (c : Dev nD) (t : Fin cfg1.N) : iblk1 (F := Ideal) V c 3 t = V c main_v44 := by
  funext y
  show V c main_v44 (((cfg1.win 3).blk t).view.emb y) = V c main_v44 y
  refine congrArg _ (funext fun a => Fin.ext ?_)
  obtain ⟨-, -, -, -, -, -, e0, e1, -⟩ := block_indices t
  match a with
  | ⟨0, _⟩ => show win1_3.index t (0 : Fin 2) * 1 + 1 * (y 0).val = (y 0).val; omega
  | ⟨1, _⟩ => show win1_3.index t (1 : Fin 2) * 64 + 1 * (y 1).val = (y 1).val; omega
theorem whole_right_weight (c : Dev nD) (t : Fin cfg1.N) : iblk1 (F := Ideal) V c 4 t = V c main_v42 := by
  funext y
  show V c main_v42 (((cfg1.win 4).blk t).view.emb y) = V c main_v42 y
  refine congrArg _ (funext fun a => Fin.ext ?_)
  obtain ⟨-, -, -, -, -, -, -, -, e0, e1, -⟩ := block_indices t
  match a with
  | ⟨0, _⟩ => show win1_4.index t (0 : Fin 2) * 128 + 1 * (y 0).val = (y 0).val; omega
  | ⟨1, _⟩ => show win1_4.index t (1 : Fin 2) * 64 + 1 * (y 1).val = (y 1).val; omega
theorem whole_head_weight (c : Dev nD) (t : Fin cfg1.N) : iblk1 (F := Ideal) V c 5 t = V c main_v43 := by
  funext y
  show V c main_v43 (((cfg1.win 5).blk t).view.emb y) = V c main_v43 y
  refine congrArg _ (funext fun a => Fin.ext ?_)
  obtain ⟨-, -, -, -, -, -, -, -, -, -, e0, e1, -⟩ := block_indices t
  match a with
  | ⟨0, _⟩ => show win1_5.index t (0 : Fin 2) * 64 + 1 * (y 0).val = (y 0).val; omega
  | ⟨1, _⟩ => show win1_5.index t (1 : Fin 2) * 2 + 1 * (y 1).val = (y 1).val; omega
theorem whole_head_bias (c : Dev nD) (t : Fin cfg1.N) : iblk1 (F := Ideal) V c 6 t = V c main_v45 := by
  funext y
  show V c main_v45 (((cfg1.win 6).blk t).view.emb y) = V c main_v45 y
  refine congrArg _ (funext fun a => Fin.ext ?_)
  obtain ⟨-, -, -, -, -, -, -, -, -, -, -, -, e0, e1, -⟩ := block_indices t
  match a with
  | ⟨0, _⟩ => show win1_6.index t (0 : Fin 2) * 1 + 1 * (y 0).val = (y 0).val; omega
  | ⟨1, _⟩ => show win1_6.index t (1 : Fin 2) * 2 + 1 * (y 1).val = (y 1).val; omega

/-- The head of the layer is row by row: computed from blocks whose row `r` holds what the arrays hold at row `R`,
    at row `r` it is the head of the layer of the arrays at row `R`. -/
theorem rows_head_layer (X M : Arr 100000 128) (X' M' : Arr 5000 128) (Wl Wr : Arr 128 64) (b : Arr 1 64) (W : Arr 64 2)
    (b2 : Arr 1 2) (R : Fin 100000) (r : Fin 5000) (q : Fin 2)
    (hX : ∀ k : Fin 128, X' (ix2 r k) = X (ix2 R k)) (hM : ∀ k : Fin 128, M' (ix2 r k) = M (ix2 R k)) :
    headT (denseT X' M' Wl Wr b) W b2 (ix2 r q) = headT (denseT X M Wl Wr b) W b2 (ix2 R q) :=
  headT_rows _ _ W b2 R r q fun j => denseT_rows X M X' M' Wl Wr b R r j hX hM

/-- The whole-array function the region computes. -/
abbrev whole (c : Dev nD) : Arr 100000 2 :=
  headT (n := 100000) (e := 64) (o := 2)
    (denseT (n := 100000) (d := 128) (e := 64) (V c main_v28) (V c main_v40) (V c main_v41) (V c main_v42) (V c main_v44))
    (V c main_v43) (V c main_v45)

/-- What point `t` writes back is block `t` of the whole-array function. -/
theorem flushed_eq (c : Dev nD) (t : Fin cfg1.N) :
    (dat1 (F := Ideal) V c).flushed 7 t = ((cfg1.win 7).blk t).view.read (Elt Ideal) (whole V c) := by
  show (cfg1.win 7).cut (grid1.coords t) ((dat1 (F := Ideal) V c).after 7 t) = _
  rw [after1_7]
  unfold out1_7
  rw [View.canon_unit_zero zero_offsets]
  simp only [View.ld_unit_zero (S := S5000x128) zero_offsets, View.ld_unit_zero (S := S128x64) zero_offsets,
    View.ld_unit_zero (S := S1x64) zero_offsets, View.ld_unit_zero (S := S64x2) zero_offsets,
    View.ld_unit_zero (S := S1x2) zero_offsets]
  rw [payload_eq, whole_left_weight, whole_bias, whole_right_weight, whole_head_weight, whole_head_bias]
  funext j
  obtain ⟨r, q, rfl⟩ : ∃ (r : Fin 5000) (q : Fin 2), j = ix2 r q := ⟨j 0, j 1, eq_ix2 j⟩
  have hN : grid1.N = 20 := N_1
  have ht : t.val < grid1.N := t.isLt
  obtain ⟨R, hR⟩ : ∃ R : Fin 100000, R.val = 5000 * t.val + r.val :=
    ⟨⟨5000 * t.val + r.val, by have := r.isLt; omega⟩, rfl⟩
  have e := block_indices t
  have e0 : win1_7.index t (0 : Fin 2) = t.val := e.2.2.2.2.2.2.2.2.2.2.2.2.2.2.1
  have e1 : win1_7.index t (1 : Fin 2) = 0 := e.2.2.2.2.2.2.2.2.2.2.2.2.2.2.2
  show headT (denseT (iblk1 V c 0 t) (iblk1 V c 1 t) (V c main_v41) (V c main_v42) (V c main_v44)) (V c main_v43)
      (V c main_v45) (ix2 r q) = whole V c (((cfg1.win 7).blk t).view.emb (ix2 r q))
  refine (rows_head_layer (V c main_v28) (V c main_v40) (iblk1 V c 0 t) (iblk1 V c 1 t) (V c main_v41) (V c main_v42)
    (V c main_v44) (V c main_v43) (V c main_v45) R r q (rows_features V c t r R hR) (rows_means V c t r R hR)).trans
    (congrArg (whole V c) (funext fun a => Fin.ext ?_))
  match a with
  | ⟨0, _⟩ => show R.val = win1_7.index t (0 : Fin 2) * 5000 + 1 * r.val; omega
  | ⟨1, _⟩ => show q.val = win1_7.index t (1 : Fin 2) * 2 + 1 * q.val; omega

/-- An index of the output array is in point `t`'s block iff each coordinate is in the block's range on its axis. -/
theorem mem_blk (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v46).slice (win1_7.rect t)).set ↔ _
  rw [View.set_slice_whole, Rect.mem_set_unit]
  exact Iff.rfl

/-- Row `R` of the output array is in the block of point `R / 5000`, which writes back. -/
theorem cover (i : S100000x2.Idx) : ∃ t : Fin cfg1.N, (cfg1.win 7).flush t = true ∧ i ∈ ((cfg1.win 7).blk t).view.set := by
  have hi0 : (i 0).val < 100000 := (i 0).isLt
  have hi1 : (i 1).val < 2 := (i 1).isLt
  have hN : grid1.N = 20 := N_1
  obtain ⟨t, ht⟩ : ∃ t : Fin cfg1.N, t.val = (i 0).val / 5000 := ⟨⟨(i 0).val / 5000, by show _ < grid1.N; omega⟩, rfl⟩
  refine ⟨t, flush1_7 t, ?_⟩
  rw [mem_blk]
  have e := block_indices t
  have e0 : win1_7.index t (0 : Fin 2) = t.val := e.2.2.2.2.2.2.2.2.2.2.2.2.2.2.1
  have e1 : win1_7.index t (1 : Fin 2) = 0 := e.2.2.2.2.2.2.2.2.2.2.2.2.2.2.2
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 2 ≤ (i 1).val ∧ (i 1).val < win1_7.index t (1 : Fin 2) * 2 + 2; omega

/-- The region's output array after its 20 points: the head of the layer, over transposed weights, of the arrays found at entry. -/
theorem final (c : Dev nD) : (dat1 (F := Ideal) V c).arrAt 7 cfg1.N
    = headT (n := 100000) (e := 64) (o := 2)
        (denseT (n := 100000) (d := 128) (e := 64) (V c main_v28) (V c main_v40) (V c main_v41) (V c main_v42) (V c main_v44))
        (V c main_v43) (V c main_v45) :=
  (dat1 (F := Ideal) V c).arrAt_eq_of_cover 7 (whole V c) (fun t _ => flushed_eq V c t) (cover)

end Cert.KernelIdeal.Region1

end
-- ==== Proof.KernelValue.lean ====
import proofs.«119120_j56435870269829_1_alg».proof.Proof.KHost
import proofs.«119120_j56435870269829_1_alg».proof.Proof.Region0
import proofs.«119120_j56435870269829_1_alg».proof.Proof.Region1
import proofs.«119120_j56435870269829_1_alg».proof.Proof.Layers
import proofs.«119120_j56435870269829_1_alg».proof.Proof.Chain
import Idealize.ShloMosaic.Lib.Pipeline.Value
import Idealize.ShloMosaic.Lib.ValueIdx

/-!
The kernel program's result array as a function of its launch arrays.

The second kernel leaves `head (dense h₁ (mean h₁) W2l W2r b2) Wfc bfc` in the result array, where
`h₁ = dense x (mean x) W1l W1r b1` is what the first kernel left and `mean` multiplies the neighbourhood sum by the
reciprocal degree. Each kernel is the transposed spelling of its layer over the arrays it finds; the arrays it finds
are the host's transposes of the weights and one-row recasts of the biases, so the transposed spelling there is the
plain one over the launch arrays.
-/

set_option maxRecDepth 16384

noncomputable section

open scoped BigOperators

namespace Cert.KernelIdeal.KValue

open Cert.KernelIdeal Cert.KernelIdeal.Gen Cert.Sage
open Idealize.ShloMosaic Idealize.ShloMosaic.TcCoe Idealize.ShloMosaic.ValueIdx Idealize.SL.Sem

/-- A transposed matrix at `(k, j)` is the matrix at `(j, k)`. -/
theorem transpose2_apply {a b : Nat} (W : Arr a b)
    (h : (⟨2, ![a, b]⟩ : Shape).Transposes [1, 0] (⟨2, ![b, a]⟩ : Shape)) (k : Fin b) (j : Fin a) :
    transpose (⟨2, ![b, a]⟩ : Shape) [1, 0] W h (ix2 k j) = W (ix2 j k) :=
  transpose_apply [1, 0] W h (ix2 k j) (ix2 j k) (fun bb => match bb with
    | ⟨0, _⟩ => rfl
    | ⟨1, _⟩ => rfl)

/-- A vector recast as a one-row matrix, at `(0, j)`, is the vector at `j`. -/
theorem row_apply {a : Nat} (v : Vct a) (h : (⟨1, ![a]⟩ : Shape).ShapeCasts (⟨2, ![1, a]⟩ : Shape)) (j : Fin a) :
    shapeCast (⟨2, ![1, a]⟩ : Shape) v h (ix2 (0 : Fin 1) j) = v (ix1 j) := by
  refine (shapeCast_addUnit_apply ![a] v h (ix2 (0 : Fin 1) j)).trans (congrArg v ?_)
  funext d
  match d with
  | ⟨0, _⟩ => rfl

variable (m : (ℓ : Loc nD τ sig) → Buf (Elt Ideal) ℓ) (ρ : Dev nD → PrngReg)

/-- The first layer's output as a function of the launch arrays. -/
abbrev h1 (c : Dev nD) : Arr 100000 128 :=
  dense (n := 100000) (d := 128) (e := 128) (m ((c : Thread nD τ).loc main_arg0)) (K.mean (m ((c : Thread nD τ).loc main_arg1)) (m ((c : Thread nD τ).loc main_arg0))) (m ((c : Thread nD τ).loc main_arg2)) (m ((c : Thread nD τ).loc main_arg4)) (m ((c : Thread nD τ).loc main_arg3))

/-- What the first kernel leaves in its output array. -/
theorem layer1 (c : Dev nD) : (dat0 (V1 m ρ) c).arrAt 5 cfg0.N = h1 m c := by
  rw [Region0.final (V1 m ρ) c, HostV.V1_arg0 m ρ c, HostV.V1_v24 m ρ c, HostV.V1_v25 m ρ c, HostV.V1_v26 m ρ c,
    HostV.V1_v27 m ρ c]
  exact dense_eq _ _ _ _ _ _ _ _ (fun k j => transpose2_apply _ _ k j) (fun k j => transpose2_apply _ _ k j)
    (fun j => row_apply _ _ j)

/-- THE RESULT: what the second kernel leaves in the program's result array. -/
theorem result (c : Dev nD) : W4 m ρ c (Proc.devRef .tc main_v46)
    = head (n := 100000) (e := 64) (o := 2)
        (dense (n := 100000) (d := 128) (e := 64) (h1 m c) (K.mean (m ((c : Thread nD τ).loc main_arg1)) (h1 m c)) (m ((c : Thread nD τ).loc main_arg5)) (m ((c : Thread nD τ).loc main_arg7)) (m ((c : Thread nD τ).loc main_arg6)))
        (m ((c : Thread nD τ).loc main_arg8)) (m ((c : Thread nD τ).loc main_arg9)) := by
  refine (W4_arr m ρ c 7).trans ?_
  rw [Region1.final (V3 m ρ) c, HostV.V3_v28 m ρ c, HostV.V3_v40 m ρ c, HostV.V3_v41 m ρ c, HostV.V3_v42 m ρ c,
    HostV.V3_v43 m ρ c, HostV.V3_v44 m ρ c, HostV.V3_v45 m ρ c, layer1 m ρ c]
  rw [dense_eq _ _ _ _ _ _ _ _ (fun k j => transpose2_apply _ _ k j) (fun k j => transpose2_apply _ _ k j)
    (fun j => row_apply _ _ j)]
  exact head_eq _ _ _ _ _ (fun q j => transpose2_apply _ _ q j) (fun j => row_apply _ _ j)

end Cert.KernelIdeal.KValue

end
-- ==== Proof.RefValue.lean ====
import proofs.«119120_j56435870269829_1_alg».proof.Proof.Gen.ReferenceIdeal.Read
import proofs.«119120_j56435870269829_1_alg».proof.Proof.Layers
import proofs.«119120_j56435870269829_1_alg».proof.Proof.Chain
import Idealize.ShloMosaic.Lib.ValueIdx
import Idealize.ShloMosaic.PureOps.Ideal.Laws

/-!
The reference's result as the two layers and the head of its arguments.

The reference computes, with the neighbourhood mean `R.mean` (the sum over incoming edges divided by the clamped
in-degree): `h₁ = dense x (mean x) W1l W1r b1`, `h₂ = dense h₁ (mean h₁) W2l W2r b2`, `out = head h₂ Wfc bfc`. Read one
operation at a time, its matrix products are the sums `∑ₖ` of the specification, its `transpose`s swap the two weight
coordinates, its two-step bias broadcasts read the bias at the feature, and `relu` is `max · 0`.
-/

noncomputable section

open scoped BigOperators

namespace Cert.ReferenceIdeal.RefValue

open Cert.ReferenceIdeal Cert.ReferenceIdeal.Gen Cert.ReferenceIdeal.Read Cert.Sage
open Idealize.ShloMosaic Idealize.ShloMosaic.TcCoe Idealize.ShloMosaic.ValueIdx

/-- The reference's first neighbourhood mean is the named mean of the node features. -/
theorem mean1_eq (x0 : FVec Ideal S100000x128 .f32) (x1 : IVec S2x1600000 32) :
    val_main_v22 (F := Ideal) x0 x1 = R.mean x1 x0 := by
  unfold val_main_v22 val_main_v13 val_main_v21 val_main_v20 val_main_v19 val_main_v18 val_main_v17 val_main_v16
    val_main_v15 val_main_v14 val_main_v12 val_main_v11 val_main_v10 val_main_v9 val_main_v8 val_main_v7 val_main_v6
    val_main_v5 val_main_v4 val_main_v3 val_main_v2 val_main_v1 val_main_v0 val_main_cst val_main_cst_1 val_main_cst_2
    val_main_cst_3 val_main_c val_main_c_0
  unfold R.mean R.agg R.deg R.srcCol R.dstCol R.src R.dst
  rfl

/-- The reference's second neighbourhood mean is the named mean of the first layer's output. -/
theorem mean2_eq (x0 : FVec Ideal S100000x128 .f32) (x1 : IVec S2x1600000 32) (x2 : FVec Ideal S128x128 .f32)
    (x3 : FVec Ideal S128 .f32) (x4 : FVec Ideal S128x128 .f32) :
    val_main_v50 (F := Ideal) x0 x1 x2 x3 x4 = R.mean x1 (val_main_v31 (F := Ideal) x0 x1 x2 x3 x4) := by
  unfold val_main_v50 val_main_v41 val_main_v49 val_main_v48 val_main_v47 val_main_v46 val_main_v45 val_main_v44
    val_main_v43 val_main_v42 val_main_v40 val_main_v39 val_main_v38 val_main_v37 val_main_v36 val_main_v35 val_main_v34
    val_main_v33 val_main_v32 val_main_v3 val_main_v2 val_main_v1 val_main_v0 val_main_cst_6 val_main_cst_7 val_main_cst_8
    val_main_cst_9 val_main_c_4 val_main_c_5
  unfold R.mean R.agg R.deg R.srcCol R.dstCol R.src R.dst
  rfl

/-- The reference's first layer output (the stage every later operation reads it through). -/
theorem layer1_eq (x0 : FVec Ideal S100000x128 .f32) (x1 : IVec S2x1600000 32) (x2 : FVec Ideal S128x128 .f32)
    (x3 : FVec Ideal S128 .f32) (x4 : FVec Ideal S128x128 .f32) :
    val_main_v31 (F := Ideal) x0 x1 x2 x3 x4 = dense (n := 100000) (d := 128) (e := 128) x0 (R.mean x1 x0) x2 x4 x3 := by
  funext i
  obtain ⟨p, q, rfl⟩ : ∃ (p : Fin 100000) (q : Fin 128), i = ix2 p q := ⟨i 0, i 1, eq_ix2 i⟩
  have el1 : ∀ k : Fin 128, lidx_main_v24 (ix2 p q) k = ix2 p k := fun k =>
    funext fun a => Fin.ext (by match a with | ⟨0, _⟩ => rfl | ⟨1, _⟩ => rfl)
  have el2 : ∀ k : Fin 128, lidx_main_v29 (ix2 p q) k = ix2 p k := fun k =>
    funext fun a => Fin.ext (by match a with | ⟨0, _⟩ => rfl | ⟨1, _⟩ => rfl)
  have er1 : ∀ k : Fin 128, idx_main_v23 (ridx_main_v24 (ix2 p q) k) = ix2 q k := fun k =>
    funext fun a => Fin.ext (by match a with | ⟨0, _⟩ => rfl | ⟨1, _⟩ => rfl)
  have er2 : ∀ k : Fin 128, idx_main_v28 (ridx_main_v29 (ix2 p q) k) = ix2 q k := fun k =>
    funext fun a => Fin.ext (by match a with | ⟨0, _⟩ => rfl | ⟨1, _⟩ => rfl)
  have eb : idx_main_v25 (idx_main_v26 (ix2 p q)) = ix1 q :=
    funext fun a => Fin.ext (by match a with | ⟨0, _⟩ => rfl)
  rw [val_main_v31_apply, val_main_v30_apply, val_main_v27_apply, val_main_v24_apply, val_main_v29_apply,
    val_main_v26_apply, val_main_v25_apply, val_main_call0_v0_apply, val_main_call0_cst_apply, mean1_eq, dense_apply]
  simp only [val_main_v23_apply, val_main_v28_apply, el1, el2, er1, er2, eb, Ideal.addf_def, Ideal.maximumf_def,
    Ideal.ofBits_def, Ideal.ofBits_zero_f32]

/-- The reference's second layer output, over the first layer's output kept as one array. -/
theorem layer2_eq (x0 : FVec Ideal S100000x128 .f32) (x1 : IVec S2x1600000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) :
    val_main_v59 (F := Ideal) x0 x1 x2 x3 x4 x5 x6 x7
      = dense (n := 100000) (d := 128) (e := 64) (val_main_v31 (F := Ideal) x0 x1 x2 x3 x4)
          (R.mean x1 (val_main_v31 (F := Ideal) x0 x1 x2 x3 x4)) x5 x7 x6 := by
  funext i
  obtain ⟨p, q, rfl⟩ : ∃ (p : Fin 100000) (q : Fin 64), i = ix2 p q := ⟨i 0, i 1, eq_ix2 i⟩
  have el1 : ∀ k : Fin 128, lidx_main_v52 (ix2 p q) k = ix2 p k := fun k =>
    funext fun a => Fin.ext (by match a with | ⟨0, _⟩ => rfl | ⟨1, _⟩ => rfl)
  have el2 : ∀ k : Fin 128, lidx_main_v57 (ix2 p q) k = ix2 p k := fun k =>
    funext fun a => Fin.ext (by match a with | ⟨0, _⟩ => rfl | ⟨1, _⟩ => rfl)
  have er1 : ∀ k : Fin 128, idx_main_v51 (ridx_main_v52 (ix2 p q) k) = ix2 q k := fun k =>
    funext fun a => Fin.ext (by match a with | ⟨0, _⟩ => rfl | ⟨1, _⟩ => rfl)
  have er2 : ∀ k : Fin 128, idx_main_v56 (ridx_main_v57 (ix2 p q) k) = ix2 q k := fun k =>
    funext fun a => Fin.ext (by match a with | ⟨0, _⟩ => rfl | ⟨1, _⟩ => rfl)
  have eb : idx_main_v53 (idx_main_v54 (ix2 p q)) = ix1 q :=
    funext fun a => Fin.ext (by match a with | ⟨0, _⟩ => rfl)
  rw [val_main_v59_apply, val_main_v58_apply, val_main_v55_apply, val_main_v52_apply, val_main_v57_apply,
    val_main_v54_apply, val_main_v53_apply, val_main_call1_v0_apply, val_main_call1_cst_apply, mean2_eq, dense_apply]
  simp only [val_main_v51_apply, val_main_v56_apply, el1, el2, er1, er2, eb, Ideal.addf_def, Ideal.maximumf_def,
    Ideal.ofBits_def, Ideal.ofBits_zero_f32]

/-- The reference's result. -/
theorem result_eq (x0 : FVec Ideal S100000x128 .f32) (x1 : IVec S2x1600000 32) (x2 : FVec Ideal S128x128 .f32)
    (x3 : FVec Ideal S128 .f32) (x4 : FVec Ideal S128x128 .f32) (x5 : FVec Ideal S64x128 .f32) (x6 : FVec Ideal S64 .f32)
    (x7 : FVec Ideal S64x128 .f32) (x8 : FVec Ideal S2x64 .f32) (x9 : FVec Ideal S2 .f32) :
    val_main_v64 (F := Ideal) x0 x1 x2 x3 x4 x5 x6 x7 x8 x9
      = head (n := 100000) (e := 64) (o := 2)
          (dense (n := 100000) (d := 128) (e := 64)
            (dense (n := 100000) (d := 128) (e := 128) x0 (R.mean x1 x0) x2 x4 x3)
            (R.mean x1 (dense (n := 100000) (d := 128) (e := 128) x0 (R.mean x1 x0) x2 x4 x3)) x5 x7 x6)
          x8 x9 := by
  funext i
  obtain ⟨p, q, rfl⟩ : ∃ (p : Fin 100000) (q : Fin 2), i = ix2 p q := ⟨i 0, i 1, eq_ix2 i⟩
  have eh : ∀ k : Fin 64, lidx_main_v61 (ix2 p q) k = ix2 p k := fun k =>
    funext fun a => Fin.ext (by match a with | ⟨0, _⟩ => rfl | ⟨1, _⟩ => rfl)
  have ew : ∀ k : Fin 64, idx_main_v60 (ridx_main_v61 (ix2 p q) k) = ix2 q k := fun k =>
    funext fun a => Fin.ext (by match a with | ⟨0, _⟩ => rfl | ⟨1, _⟩ => rfl)
  have eb : idx_main_v62 (idx_main_v63 (ix2 p q)) = ix1 q :=
    funext fun a => Fin.ext (by match a with | ⟨0, _⟩ => rfl)
  rw [val_main_v64_apply, val_main_v61_apply, val_main_v63_apply, val_main_v62_apply, head_apply]
  simp only [val_main_v60_apply, eh, ew, eb, Ideal.addf_def]
  rw [layer2_eq, layer1_eq]

end Cert.ReferenceIdeal.RefValue

end
-- ==== Proof.LibScatterVec.lean ====
import Idealize.ShloMosaic.PureOps.Ideal
import Idealize.ShloMosaic.PureOps.Ideal.Laws
import Idealize.ShloMosaic.Lib.ValueIdx
import Idealize.ShloMosaic.Lib.ValueIdxRank1

/-!
A float scatter-add of scalars read at an entry.

`K` accumulator entries, `N` updates, update `n` added into the entry its segment number names: a scatter with an
`add` body whose operand is `[K]`, whose scatter indices are the `[N, 1]` column of segment numbers and whose updates are
`[N]` — no update window axis, the operand's one axis inserted and start-indexed, the index vector on axis 1. Over the
extended reals entry `s` of the result is the operand's entry plus the sum of the updates whose segment number, read
signed, is `s`; an update whose number is negative or `K` and above lands nowhere.
-/

noncomputable section

open scoped BigOperators

namespace Idealize.ShloMosaic.ScatterVec

open Idealize.ShloMosaic Idealize.ShloMosaic.ValueIdx

/-- The start of update `n`'s window on the operand's one axis: row `n` of the index column, read signed. -/
private theorem start_zero {K N w : Nat} (d : ScatterDims ⟨1, ![K]⟩ ⟨2, ![N, 1]⟩ ⟨1, ![N]⟩)
    (hsd : d.scatterDimsToOperandDims = [0]) (hiv : d.indexVectorDim = 1)
    (idx : IVec ⟨2, ![N, 1]⟩ w) (n : Fin N) :
    d.start (ix1 n) idx 0 = (idx (ix2 n (0 : Fin 1))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- axis 0 of the index column is its one scatter axis: it reads the update's one coordinate
    unfold ScatterDims.siIdx
    rw [dif_neg (by rw [hiv]; simp)]
    unfold ScatterDims.siCoord
    apply Fin.ext
    simp only [Fin.val_cast]
    have e : ∀ X : Fin 1, ((ix1 n : (⟨1, ![N]⟩ : Shape).Idx) X).val = n.val := fun X => by
      have hX : X = 0 := Subsingleton.elim _ _
      subst hX; rfl
    exact e _
  | ⟨1, _⟩ =>
    -- axis 1 is the index vector's: the component number, the position of operand axis 0 in the one-entry map
    unfold ScatterDims.siIdx
    rw [dif_pos (by rw [hiv])]
    apply Fin.ext
    show List.idxOf (0 : Fin 1) d.scatterDimsToOperandDims = 0
    rw [hsd]; simp

/-- The operand's one axis is inserted, so the window coordinate on it is `0`. -/
private theorem window_zero {K N : Nat} (d : ScatterDims ⟨1, ![K]⟩ ⟨2, ![N, 1]⟩ ⟨1, ![N]⟩)
    (hiw : d.insertedWindowDims = [0]) (i : (⟨1, ![N]⟩ : Shape).Idx) :
    d.window i 0 = 0 := by
  unfold ScatterDims.window
  rw [dif_neg]
  simp [ScatterDims.sKept, Shape.kept, hiw]

/-- Where update `n` lands: at the entry its segment number names when that is one of `0 … K - 1`. -/
theorem resultIdx?_eq_some_iff {K N w : Nat} (d : ScatterDims ⟨1, ![K]⟩ ⟨2, ![N, 1]⟩ ⟨1, ![N]⟩)
    (hiw : d.insertedWindowDims = [0])
    (hsd : d.scatterDimsToOperandDims = [0]) (hiv : d.indexVectorDim = 1)
    (idx : IVec ⟨2, ![N, 1]⟩ w) (n : Fin N) (s : Fin K) :
    d.resultIdx? (ix1 n) idx = some (ix1 s) ↔ (idx (ix2 n (0 : Fin 1))).toInt = (s.val : Int) := by
  have hst0 := start_zero d hsd hiv idx n
  have hw0 := window_zero d hiw (ix1 n)
  have hK : (⟨1, ![K]⟩ : Shape).size (0 : Fin 1) = K := rfl
  have hs := s.isLt
  unfold ScatterDims.resultIdx?
  split
  · next h =>
    rw [Option.some.injEq]
    constructor
    · intro e
      have e0 := congrArg (fun f => (f (0 : Fin 1)).val) e
      simp only [hst0, hw0] at e0
      change ((idx (ix2 n (0 : Fin 1))).toInt + ((0 : Nat) : Int)).toNat = s.val at e0
      have h0 := h 0
      rw [hst0, hw0] at h0
      omega
    · intro e
      funext a
      match a with
      | ⟨0, _⟩ =>
        apply Fin.ext
        show (d.start (ix1 n) idx 0 + ((d.window (ix1 n) 0 : Nat) : Int)).toNat = s.val
        rw [hst0, hw0]; omega
  · next h =>
    constructor
    · intro e; exact absurd e (by simp)
    · intro e
      exfalso
      apply h
      intro a
      have ha : a = 0 := Subsingleton.elim _ _
      subst ha
      rw [hst0, hw0, hK, e]; omega

/-- THE SEGMENT SUM OF SCALARS AT AN ENTRY: the operand's entry plus the updates of that segment. The record's empty
    list of update window axes follows from its other fields; it is asked for so that the four printed fields are
    stated together. -/
theorem scatterAdd_vec_apply {K N w : Nat} (d : ScatterDims ⟨1, ![K]⟩ ⟨2, ![N, 1]⟩ ⟨1, ![N]⟩)
    (_huw : d.updateWindowDims = []) (hiw : d.insertedWindowDims = [0])
    (hsd : d.scatterDimsToOperandDims = [0]) (hiv : d.indexVectorDim = 1)
    (x : FVec Ideal ⟨1, ![K]⟩ .f32) (idx : IVec ⟨2, ![N, 1]⟩ w) (upd : FVec Ideal ⟨1, ![N]⟩ .f32)
    (s : Fin K) :
    Host.scatterAdd (F := Ideal) d x idx upd (ix1 s)
      = x (ix1 s) + ∑ n : Fin N, if (idx (ix2 n (0 : Fin 1))).toInt = (s.val : Int) then upd (ix1 n) else 0 := by
  show Ideal.hostScatterAdd d x idx upd (ix1 s) = _
  unfold Ideal.hostScatterAdd
  congr 1
  -- the sum over the update indices that land on `s`, as a sum over the update numbers
  rw [Finset.sum_filter, ← Equiv.sum_comp (idxEquiv1 (n := N)).symm]
  refine Finset.sum_congr rfl fun n _ => ?_
  show (if d.resultIdx? (ix1 n) idx = some (ix1 s) then upd (ix1 n) else 0) = _
  simp only [resultIdx?_eq_some_iff d hiw hsd hiv idx n s]

end Idealize.ShloMosaic.ScatterVec

end
-- ==== Proof.MeanLaw.lean ====
import proofs.«119120_j56435870269829_1_alg».proof.Proof.Chain
import proofs.«119120_j56435870269829_1_alg».proof.Proof.LibScatterVec
import Idealize.ShloMosaic.Lib.ValueIdx
import Idealize.ShloMosaic.Lib.IdealHost
import Idealize.ShloMosaic.Lib.Pipeline.Value
import Idealize.ShloMosaic.PureOps.Ideal.Laws

/-!
The two spellings of the neighbourhood mean are one function.

A node's clamped in-degree is `max (count of the edges ending at it) 1`: it is at least one, so it is not zero. Away
from a zero divisor the quotient `x / d` is by definition the product `x · d⁻¹`, for every extended real `x` and `d`; the
reciprocal taken first is `1 / d = 1 · d⁻¹ = d⁻¹`. So `sum · (1 / d) = sum · d⁻¹ = sum / d` at every entry, with no
finiteness asked of the sum, and none of the degree either.
-/

noncomputable section

open scoped BigOperators

namespace Cert.Sage

open Idealize.ShloMosaic Idealize.ShloMosaic.TcCoe Idealize.ShloMosaic.ValueIdx

namespace MeanLaw

/-- The two programs count the clamped in-degree by the same operations on the same shapes: one vector. -/
theorem deg_eq (ei : IVec Cert.KernelIdeal.S2x1600000 32) : K.deg ei = R.deg ei := rfl

/-- The two programs sum the neighbours' rows by the same operations on the same shapes: one array. -/
theorem agg_eq (ei : IVec Cert.KernelIdeal.S2x1600000 32) (A : FVec Ideal Cert.KernelIdeal.S100000x128 .f32) :
    K.agg ei A = R.agg ei A := rfl

/-- A vector of `n` entries made a column and the column copied along `m` columns: entry `(p, q)` is entry `p`. -/
theorem bcast_col_apply {α : Type} {n m : Nat}
    (h₁ : (⟨1, ![n]⟩ : Shape).BroadcastsInDim ⟨2, ![n, 1]⟩ ![0])
    (h₂ : (⟨2, ![n, 1]⟩ : Shape).BroadcastsInDim ⟨2, ![n, m]⟩ ![0, 1])
    (d : (⟨1, ![n]⟩ : Shape).Idx → α) (p : Fin n) (q : Fin m) :
    broadcastInDim ⟨2, ![n, m]⟩ ![0, 1] h₂ (broadcastInDim ⟨2, ![n, 1]⟩ ![0] h₁ d) (ix2 p q) = d (ix1 p) := by
  -- the outer copy reads the column at row `p`; the column reads the vector at `p`
  refine (broadcastInDim_apply _ h₂ _ (ix2 p q) (ix2 p (0 : Fin 1)) (fun a => ?_)).trans
    (broadcastInDim_apply _ h₁ d (ix2 p (0 : Fin 1)) (ix1 p) (fun a => ?_))
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- An entry of the clamped degree is a maximum with one: at least one, so not zero. -/
theorem deg_ne_zero (ei : IVec Cert.ReferenceIdeal.S2x1600000 32) (p : Fin 100000) : R.deg ei (ix1 p) ≠ 0 := by
  have h1 : (1 : EReal) ≤ R.deg ei (ix1 p) := by
    unfold R.deg
    rw [maximumf_apply, broadcastInDim_scalar_apply, constant_apply, Ideal.ofBits_one_f32]
    exact le_max_right _ _
  intro e
  rw [e] at h1
  exact absurd h1 (by norm_num)

end MeanLaw

/-- The two programs' means agree on every edge list and every node array. -/
theorem mean_eq (ei : IVec Cert.KernelIdeal.S2x1600000 32) (A : FVec Ideal Cert.KernelIdeal.S100000x128 .f32) :
    K.mean ei A = R.mean ei A := by
  funext i
  obtain ⟨p, q, rfl⟩ : ∃ (p : Fin 100000) (q : Fin 128), i = ix2 p q := ⟨i 0, i 1, eq_ix2 i⟩
  unfold K.mean R.mean
  rw [mulf_apply, hostDivf_apply, MeanLaw.bcast_col_apply, MeanLaw.bcast_col_apply, hostDivf_apply,
    broadcastInDim_scalar_apply, constant_apply, Ideal.ofBits_one_f32, MeanLaw.agg_eq, MeanLaw.deg_eq]
  exact Ideal.mul_one_div (MeanLaw.deg_ne_zero ei p)

end Cert.Sage

end
-- ==== Proof.lean ====
/-
  Two mean-aggregation graph layers and a linear head, on 100000 nodes and 1600000 edges: the kernel program against
  its plain reference, equal over the extended reals.

  Both programs gather the source nodes' rows along the edges and sum them into the destination nodes on the host
  (the same gather and scatter-add, out-of-range edges treated alike), and count each node's incoming edges the
  same way. They part in two places. (1) The mean: the kernel program multiplies a node's neighbourhood sum by
  `1 / max(deg, 1)`, the reference divides it by `max(deg, 1)`. The clamped degree is a real number, at least one,
  and on the extended reals dividing by a nonzero real IS multiplying by its real reciprocal, whatever is divided:
  the two means are one function, and no finiteness of the features is used. (2) The dense part
  `max ((mean · Wlᵀ + b) + x · Wrᵀ) 0` of each layer, and the head `h · Wfcᵀ + bfc`: the reference runs whole matrix
  products on the host; the kernel program runs two kernels over 20 blocks of 5000 node rows each, on weights the
  host transposed beforehand, its narrow-float casts the identity over the extended reals. Each row of a layer reads
  only that row of its inputs, so a row block of the layer is the layer of the row blocks, and the blocks tile the
  rows: each kernel leaves the whole layer in its output array.

  The run of the kernel program with its result array named is the frame's launch over the same segments
  (Proof/KernelRun.lean); each kernel's output array as one function is Proof/Region0.lean, Proof/Region1.lean; what
  the kernels find in their operands, Proof/KHost.lean; the result as a function of the launch arrays,
  Proof/KernelValue.lean; the reference's result, Proof/RefValue.lean; the two means, Proof/MeanLaw.lean.
-/
import proofs.«119120_j56435870269829_1_alg».proof.Defs
import proofs.«119120_j56435870269829_1_alg».proof.Proof.Gen.Kernel
import proofs.«119120_j56435870269829_1_alg».proof.Proof.Gen.Kernel.Skeleton
import proofs.«119120_j56435870269829_1_alg».proof.Proof.Gen.Kernel.Launch
import proofs.«119120_j56435870269829_1_alg».proof.Proof.Gen.Kernel.Points
import proofs.«119120_j56435870269829_1_alg».proof.Proof.Gen.Kernel.Frame
import proofs.«119120_j56435870269829_1_alg».proof.Proof.Gen.KernelIdeal
import proofs.«119120_j56435870269829_1_alg».proof.Proof.Gen.KernelIdeal.Skeleton
import proofs.«119120_j56435870269829_1_alg».proof.Proof.Gen.KernelIdeal.Launch
import proofs.«119120_j56435870269829_1_alg».proof.Proof.Gen.KernelIdeal.Points
import proofs.«119120_j56435870269829_1_alg».proof.Proof.Gen.KernelIdeal.Frame
import proofs.«119120_j56435870269829_1_alg».proof.Proof.Gen.ReferenceIdeal
import proofs.«119120_j56435870269829_1_alg».proof.Proof.Gen.Pre_finite_inputs
import proofs.«119120_j56435870269829_1_alg».proof.Proof.Gen.ReferenceIdeal.Run
import proofs.«119120_j56435870269829_1_alg».proof.Proof.Gen.ReferenceIdeal.Read
import proofs.«119120_j56435870269829_1_alg».proof.Proof.KernelRun
import proofs.«119120_j56435870269829_1_alg».proof.Proof.KernelValue
import proofs.«119120_j56435870269829_1_alg».proof.Proof.RefValue
import proofs.«119120_j56435870269829_1_alg».proof.Proof.MeanLaw
import Idealize.ShloMosaic.Adequacy
import Idealize.ShloMosaic.Init

noncomputable section

namespace Cert.Proof

open Idealize.ShloMosaic Idealize.ShloMosaic.TcCoe Idealize.SL.Sem Cert.Sage

/-- The word-level kernel program runs, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the head of the second
    layer of the first layer of the features, the two spellings of the mean being one function. -/
theorem algebraic : Cert.algebraic_KernelIdeal_ReferenceIdeal := by
  intro m ρ m' ρ' _ hagree
  refine ⟨fun c => Cert.KernelIdeal.Gen.W4 m ρ c (Proc.devRef .tc Cert.KernelIdeal.main_v46),
    Cert.KernelIdeal.RunV.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  refine (Cert.ReferenceIdeal.Read.val_main_v64_eq m' c).trans ?_
  rw [e0, e1, e2, e3, e4, e5, e6, e7, e8, e9]
  refine (Cert.ReferenceIdeal.RefValue.result_eq _ _ _ _ _ _ _ _ _ _).trans ?_
  refine Eq.trans ?_ (Cert.KernelIdeal.KValue.result m ρ c).symm
  -- the first layer's output under either mean
  have hm1 : K.mean (m ((c.tc : Thread Cert.KernelIdeal.nD Cert.KernelIdeal.τ).loc Cert.KernelIdeal.main_arg1)) (m ((c.tc : Thread Cert.KernelIdeal.nD Cert.KernelIdeal.τ).loc Cert.KernelIdeal.main_arg0)) = R.mean (m ((c.tc : Thread Cert.KernelIdeal.nD Cert.KernelIdeal.τ).loc Cert.KernelIdeal.main_arg1)) (m ((c.tc : Thread Cert.KernelIdeal.nD Cert.KernelIdeal.τ).loc Cert.KernelIdeal.main_arg0)) := mean_eq _ _
  have hh : Cert.KernelIdeal.KValue.h1 m c
      = dense (n := 100000) (d := 128) (e := 128) (m ((c.tc : Thread Cert.KernelIdeal.nD Cert.KernelIdeal.τ).loc Cert.KernelIdeal.main_arg0)) (R.mean (m ((c.tc : Thread Cert.KernelIdeal.nD Cert.KernelIdeal.τ).loc Cert.KernelIdeal.main_arg1)) (m ((c.tc : Thread Cert.KernelIdeal.nD Cert.KernelIdeal.τ).loc Cert.KernelIdeal.main_arg0))) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) := by
    show dense (n := 100000) (d := 128) (e := 128) _ (K.mean _ _) _ _ _ = _
    rw [hm1]
  rw [hh, mean_eq (m ((c.tc : Thread Cert.KernelIdeal.nD Cert.KernelIdeal.τ).loc Cert.KernelIdeal.main_arg1)) _]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
